-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x10 : Shape := ⟨2, ![4000000, 10]⟩
abbrev S10x10 : Shape := ⟨2, ![10, 10]⟩
abbrev S1x10 : Shape := ⟨2, ![1, 10]⟩
abbrev S10 : Shape := ⟨1, ![10]⟩
abbrev S_ : Shape := ⟨0, ![]⟩

class Facts : Prop where
  bcast_S_S4000000x10 : S_.BroadcastsInDim S4000000x10 (![] : Fin 0 → Fin S4000000x10.rank)
  reducesTo_S4000000x10_S_d0_1 : S4000000x10.ReducesTo [0, 1] S_
  h_S_ : 0 < S_.numel
  bcast_S_S10x10 : S_.BroadcastsInDim S10x10 (![] : Fin 0 → Fin S10x10.rank)
  reducesTo_S10x10_S_d0_1 : S10x10.ReducesTo [0, 1] S_
  bcast_S_S1x10 : S_.BroadcastsInDim S1x10 (![] : Fin 0 → Fin S1x10.rank)
  reducesTo_S1x10_S_d0_1 : S1x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg6 : FVec F S10 .f32) (main_v33 : IVec S_ 1) : IVec S_ 1 :=
  let main_cst_12 : FVec F S_ .f32 := constant S_ .f32 0x00000000#32
  let main_v34 : FVec F S10 .f32 := broadcastInDim S10 ![] bcast_S_S10 main_cst_12
  let main_v35 : IVec S10 1 := cmpf .oge main_arg6 main_v34
  let main_c_13 : IVec S_ 1 := constantI S_ 1 1#1
  let main_v36 : IVec S_ 1 := (fun x v => Host.reduce IntOp.andi x v reducesTo_S10_S_d0 h_S_) main_v35 main_c_13
  let main_v37 : IVec S_ 1 := andi main_v33 main_v36
  main_v37

def fn_part1 {F : FTy → Type} [FloatOps F] (main_arg4 : FVec F S10 .f32) (main_arg5 : FVec F S10 .f32) (main_arg6 : FVec F S10 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg6 main_v33

def fn {F : FTy → Type} [FloatOps F] (main_arg0 : FVec F S4000000x10 .f32) (main_arg1 : FVec F S10x10 .f32) (main_arg2 : FVec F S1x10 .f32) (main_arg3 : FVec F S10 .f32) (main_arg4 : FVec F S10 .f32) (main_arg5 : FVec F S10 .f32) (main_arg6 : FVec F S10 .f32) : IVec S_ 1 :=
  let main_v0 : FVec F S4000000x10 .f32 := Host.absf main_arg0
  let main_cst : FVec F S_ .f32 := constant S_ .f32 0x7F800000#32
  let main_v1 : FVec F S4000000x10 .f32 := broadcastInDim S4000000x10 ![] bcast_S_S4000000x10 main_cst
  let main_v2 : IVec S4000000x10 1 := cmpf .olt main_v0 main_v1
  let main_c : IVec S_ 1 := constantI S_ 1 1#1
  let main_v3 : IVec S_ 1 := (fun x v => Host.reduce IntOp.andi x v reducesTo_S4000000x10_S_d0_1 h_S_) main_v2 main_c
  let main_v4 : FVec F S10x10 .f32 := Host.absf main_arg1
  let main_cst_0 : FVec F S_ .f32 := constant S_ .f32 0x7F800000#32
  let main_v5 : FVec F S10x10 .f32 := broadcastInDim S10x10 ![] bcast_S_S10x10 main_cst_0
  let main_v6 : IVec S10x10 1 := cmpf .olt main_v4 main_v5
  let main_c_1 : IVec S_ 1 := constantI S_ 1 1#1
  let main_v7 : IVec S_ 1 := (fun x v => Host.reduce IntOp.andi x v reducesTo_S10x10_S_d0_1 h_S_) main_v6 main_c_1
  let main_v8 : IVec S_ 1 := andi main_v3 main_v7
  let main_v9 : FVec F S1x10 .f32 := Host.absf main_arg2
  let main_cst_2 : FVec F S_ .f32 := constant S_ .f32 0x7F800000#32
  let main_v10 : FVec F S1x10 .f32 := broadcastInDim S1x10 ![] bcast_S_S1x10 main_cst_2
  let main_v11 : IVec S1x10 1 := cmpf .olt main_v9 main_v10
  let main_c_3 : IVec S_ 1 := constantI S_ 1 1#1
  let main_v12 : IVec S_ 1 := (fun x v => Host.reduce IntOp.andi x v reducesTo_S1x10_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg4 main_arg5 main_arg6 main_v13 main_v16
-- ==== Kernel.lean ====
abbrev S4000000x10 : Shape := ⟨2, ![4000000, 10]⟩
abbrev S10x10 : Shape := ⟨2, ![10, 10]⟩
abbrev S1x10 : Shape := ⟨2, ![1, 10]⟩
abbrev S10 : Shape := ⟨1, ![10]⟩
abbrev S_ : Shape := ⟨0, ![]⟩
abbrev S10000x10 : Shape := ⟨2, ![10000, 10]⟩

abbrev nBuf : Space → Nat
  | .hbm => 22
  | .vmem => 6
  | .smem => 0
  | _ => 0

abbrev bufTy : (tb : Table) → Fin (tcTables nBuf tb) → BufTy
  | .hbm, ⟨0, _⟩ => ⟨S4000000x10, .f32⟩
  | .hbm, ⟨1, _⟩ => ⟨S10x10, .f32⟩
  | .hbm, ⟨2, _⟩ => ⟨S1x10, .f32⟩
  | .hbm, ⟨3, _⟩ => ⟨S10, .f32⟩
  | .hbm, ⟨4, _⟩ => ⟨S10, .f32⟩
  | .hbm, ⟨5, _⟩ => ⟨S10, .f32⟩
  | .hbm, ⟨6, _⟩ => ⟨S10, .f32⟩
  | .hbm, ⟨7, _⟩ => ⟨S_, .f32⟩
  | .hbm, ⟨8, _⟩ => ⟨S10, .f32⟩
  | .hbm, ⟨9, _⟩ => ⟨S10, .f32⟩
  | .hbm, ⟨10, _⟩ => ⟨S10, .f32⟩
  | .hbm, ⟨11, _⟩ => ⟨S10, .f32⟩
  | .hbm, ⟨12, _⟩ => ⟨S10, .f32⟩
  | .hbm, ⟨13, _⟩ => ⟨S10, .f32⟩
  | .hbm, ⟨14, _⟩ => ⟨S1x10, .f32⟩
  | .hbm, ⟨15, _⟩ => ⟨S10x10, .f32⟩
  | .hbm, ⟨16, _⟩ => ⟨S10x10, .f32⟩
  | .hbm, ⟨17, _⟩ => ⟨S1x10, .f32⟩
  | .hbm, ⟨18, _⟩ => ⟨S1x10, .f32⟩
  | .hbm, ⟨19, _⟩ => ⟨S1x10, .f32⟩
  | .hbm, ⟨20, _⟩ => ⟨S1x10, .f32⟩
  | .hbm, ⟨21, _⟩ => ⟨S4000000x10, .f32⟩
  | .local _ .vmem, ⟨0, _⟩ => ⟨S10000x10, .f32⟩
  | .local _ .vmem, ⟨1, _⟩ => ⟨S10000x10, .f32⟩
  | .local _ .vmem, ⟨2, _⟩ => ⟨S10x10, .f32⟩
  | .local _ .vmem, ⟨3, _⟩ => ⟨S1x10, .f32⟩
  | .local _ .vmem, ⟨4, _⟩ => ⟨S10000x10, .f32⟩
  | .local _ .vmem, ⟨5, _⟩ => ⟨S10000x10, .f32⟩
  | _, _ => ⟨S4000000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S10 : S_.BroadcastsInDim S10 (![] : Fin 0 → Fin S10.rank)
  bcast_S10_S1x10_1 : S10.BroadcastsInDim S1x10 (![1] : Fin 1 → Fin S1x10.rank)
  bcast_S1x10_S10x10_0_1 : S1x10.BroadcastsInDim S10x10 (![0, 1] : Fin 2 → Fin S10x10.rank)
  inb_S10000x10_S10000x10_0_0 : ∀ a, (![0, 0] : Fin 2 → Nat) a + S10000x10.size a ≤ S10000x10.size a
  h_S10000x10 : 0 < S10000x10.numel
  bitsLt_bf16_f32 : FTy.bits .bf16 < FTy.bits .f32
  inb_S10x10_S10x10_0_0 : ∀ a, (![0, 0] : Fin 2 → Nat) a + S10x10.size a ≤ S10x10.size a
  h_S10x10 : 0 < S10x10.numel
  shapeCasts_S10x10_S10x10 : S10x10.ShapeCasts S10x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  dot_S10000x10_S10x10_S10000x10_1_0_0_1_n_n_wf : DotDims.WF S10000x10 S10x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S4000000x10.size a
  hwx0_0 : ∀ i : grid0.Coords, EltTy.bits .f32 = 32 ∨ (Rect.block (s := S4000000x10) S10000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x10.size a ≤ S10x10.size a
  hwx0_1 : ∀ i : grid0.Coords, EltTy.bits .f32 = 32 ∨ (Rect.block (s := S10x10) S10x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x10.size a ≤ S4000000x10.size a
  hwx0_3 : ∀ i : grid0.Coords, EltTy.bits .f32 = 32 ∨ (Rect.block (s := S4000000x10) S10000x10.size (cc0_transform_3 i) (hinb0_3 i)).WholeWords (EltTy.packing .f32)

variable [Facts₀]

def dot_S10000x10_S10x10_S10000x10_1_0_0_1_n_n : DotDims S10000x10 S10x10 S10000x10 where
  lhsContracting := [1]
  rhsContracting := [0]
  lhsNonContracting := [0]
  rhsNonContracting := [1]
  lhsBatch := []
  rhsBatch := []
  wf := dot_S10000x10_S10x10_S10000x10_1_0_0_1_n_n_wf

abbrev win0_0 : Pipeline.Window sig grid0 :=
  Pipeline.Window.ofSpec (Memref.whole main_arg0) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S10x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4000000x10 : Shape := ⟨2, ![4000000, 10]⟩
abbrev S10x10 : Shape := ⟨2, ![10, 10]⟩
abbrev S1x10 : Shape := ⟨2, ![1, 10]⟩
abbrev S10 : Shape := ⟨1, ![10]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4000000x10, .f32⟩
  | .hbm, ⟨1, _⟩ => ⟨S10x10, .f32⟩
  | .hbm, ⟨2, _⟩ => ⟨S1x10, .f32⟩
  | .hbm, ⟨3, _⟩ => ⟨S10, .f32⟩
  | .hbm, ⟨4, _⟩ => ⟨S10, .f32⟩
  | .hbm, ⟨5, _⟩ => ⟨S10, .f32⟩
  | .hbm, ⟨6, _⟩ => ⟨S10, .f32⟩
  | .hbm, ⟨7, _⟩ => ⟨S4000000x10, .f32⟩
  | .hbm, ⟨8, _⟩ => ⟨S4000000x10, .f32⟩
  | .hbm, ⟨9, _⟩ => ⟨S4000000x10, .f32⟩
  | .hbm, ⟨10, _⟩ => ⟨S_, .f32⟩
  | .hbm, ⟨11, _⟩ => ⟨S10, .f32⟩
  | .hbm, ⟨12, _⟩ => ⟨S10, .f32⟩
  | .hbm, ⟨13, _⟩ => ⟨S10, .f32⟩
  | .hbm, ⟨14, _⟩ => ⟨S10, .f32⟩
  | .hbm, ⟨15, _⟩ => ⟨S1x10, .f32⟩
  | .hbm, ⟨16, _⟩ => ⟨S4000000x10, .f32⟩
  | .hbm, ⟨17, _⟩ => ⟨S4000000x10, .f32⟩
  | .hbm, ⟨18, _⟩ => ⟨S10, .f32⟩
  | .hbm, ⟨19, _⟩ => ⟨S10, .f32⟩
  | .hbm, ⟨20, _⟩ => ⟨S1x10, .f32⟩
  | .hbm, ⟨21, _⟩ => ⟨S4000000x10, .f32⟩
  | .hbm, ⟨22, _⟩ => ⟨S4000000x10, .f32⟩
  | _, _ => ⟨S4000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S1x10_S4000000x10_0_1 : S1x10.BroadcastsInDim S4000000x10 (![0, 1] : Fin 2 → Fin S4000000x10.rank)
  bcast_S_S10 : S_.BroadcastsInDim S10 (![] : Fin 0 → Fin S10.rank)
  bcast_S10_S1x10_1 : S10.BroadcastsInDim S1x10 (![1] : Fin 1 → Fin S1x10.rank)
  dot_S4000000x10_S10x10_S4000000x10_1_0_0_1_n_n_wf : DotDims.WF S4000000x10 S10x10 S4000000x10 [1] [0] [0] [1] [] []

variable [Facts₀]

def dot_S4000000x10_S10x10_S4000000x10_1_0_0_1_n_n : DotDims S4000000x10 S10x10 S4000000x10 where
  lhsContracting := [1]
  rhsContracting := [0]
  lhsNonContracting := [0]
  rhsNonContracting := [1]
  lhsBatch := []
  rhsBatch := []
  wf := dot_S4000000x10_S10x10_S4000000x10_1_0_0_1_n_n_wf

class Facts : Prop extends Facts₀ where

variable [Facts]
-- ==== Proof.PreFacts.lean ====
/-
  What the precondition says of the argument arrays, entry by entry.

  The printed predicate is a conjunction of eight `jnp.all`s: for each of the seven arrays `|a| < +∞` at every
  entry, and for the moving variance also `0 ≤ v` at every entry. Read at the ideal values: `|a| = max a (−a)` is below
  `⊤` exactly when `a` is neither `⊤` nor `⊥`, that is, when `a` is a real number; and `v ≥ 0` is the order of the
  extended reals against the zero word. So under the precondition all seven arrays hold real numbers and the variance
  is nowhere negative — which is what keeps `rsqrt (v + ε)` a positive real.
-/
import proofs.«176276_j87522843559166_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreFacts

open Idealize.ShloMosaic Cert.Pre_finite_inputs

/-- A one-bit word made from a Boolean is 1 only for `true`. -/
theorem eq_true_of_ofBool_eq_one {b : Bool} (h : BitVec.ofBool b = 1#1) : b = true := by
  cases b
  · exact absurd h (by decide)
  · rfl

/-- `|x| < +∞` holds only of a real number: `max x (−x)` is `⊤` at both infinities. -/
theorem real_of_abs_lt_inf (x : EReal)
    (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  have hlt : max x (-x) < ⊤ := of_decide_eq_true (eq_true_of_ofBool_eq_one h)
  constructor
  · rintro rfl; simp at hlt
  · rintro rfl; simp at hlt

/-- `x ≥ 0.0` at the ideal values is the order of the extended reals against zero. -/
theorem nonneg_of_ge_zero (x : EReal) (h : Ideal.cmp .oge x (Ideal.ofBits .f32 0x00000000#32) = 1#1) : 0 ≤ x := by
  rw [Ideal.ofBits_zero_f32] at h
  exact of_decide_eq_true (eq_true_of_ofBool_eq_one h)

instance : Subsingleton S_.Idx := ⟨fun _ _ => funext fun d => d.elim0⟩

variable [Cert.Pre_finite_inputs.Facts]

/-- Under the precondition every entry of every argument array is a real number, and no entry of the moving variance
    (the last array) is negative. -/
theorem of_pre (a0 : FVec Ideal S4000000x10 .f32) (a1 : FVec Ideal S10x10 .f32) (a2 : FVec Ideal S1x10 .f32)
    (a3 a4 a5 a6 : FVec Ideal S10 .f32) (h : fn (F := Ideal) a0 a1 a2 a3 a4 a5 a6 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥)
      ∧ (∀ i, a4 i ≠ ⊤ ∧ a4 i ≠ ⊥) ∧ (∀ i, a5 i ≠ ⊤ ∧ a5 i ≠ ⊥) ∧ (∀ i, a6 i ≠ ⊤ ∧ a6 i ≠ ⊥) ∧ (∀ i, 0 ≤ a6 i) := by
  have h0 := congrFun h ValueIdx.ix0
  dsimp only [fn, fn_part1, fn_part2] at h0
  replace h0 : IntOp.andi _ _ = 1#1 := h0
  obtain ⟨h0, g7⟩ := IntOp.andi_eq_one.1 h0
  replace h0 : IntOp.andi _ _ = 1#1 := h0
  obtain ⟨h0, g6⟩ := IntOp.andi_eq_one.1 h0
  replace h0 : IntOp.andi _ _ = 1#1 := h0
  obtain ⟨h0, g5⟩ := IntOp.andi_eq_one.1 h0
  replace h0 : IntOp.andi _ _ = 1#1 := h0
  obtain ⟨h0, g4⟩ := IntOp.andi_eq_one.1 h0
  replace h0 : IntOp.andi _ _ = 1#1 := h0
  obtain ⟨h0, g3⟩ := IntOp.andi_eq_one.1 h0
  replace h0 : IntOp.andi _ _ = 1#1 := h0
  obtain ⟨h0, g2⟩ := IntOp.andi_eq_one.1 h0
  replace h0 : IntOp.andi _ _ = 1#1 := h0
  obtain ⟨g0, g1⟩ := IntOp.andi_eq_one.1 h0
  exact ⟨fun i => real_of_abs_lt_inf (a0 i) (Host.reduce_andi_all _ _ _ _ _ g0 i),
    fun i => real_of_abs_lt_inf (a1 i) (Host.reduce_andi_all _ _ _ _ _ g1 i),
    fun i => real_of_abs_lt_inf (a2 i) (Host.reduce_andi_all _ _ _ _ _ g2 i),
    fun i => real_of_abs_lt_inf (a3 i) (Host.reduce_andi_all _ _ _ _ _ g3 i),
    fun i => real_of_abs_lt_inf (a4 i) (Host.reduce_andi_all _ _ _ _ _ g4 i),
    fun i => real_of_abs_lt_inf (a5 i) (Host.reduce_andi_all _ _ _ _ _ g5 i),
    fun i => real_of_abs_lt_inf (a6 i) (Host.reduce_andi_all _ _ _ _ _ g6 i),
    fun i => nonneg_of_ge_zero (a6 i) (Host.reduce_andi_all _ _ _ _ _ g7 i)⟩

end Cert.PreFacts

end
-- ==== Proof.ScaleLaw.lean ====
/-
  The algebra that joins the two programs, on the extended reals, with no program in sight.

  Both compute, for a row `x` of ten inputs, a column `w` of ten weights, a bias `b`, and per output column a
  scale `s = γ · rsqrt (v + ε)` and a shift `h = β − μ · s`:

    the kernel     `∑ₖ xₖ · (wₖ · s) + (b · s + h)`   — the scale folded into the weights and the bias first,
    the reference  `(∑ₖ xₖ · wₖ + b) · s + h`          — the scale applied to the finished sum.

  The two agree by distributivity of `·` over `+`, which on the extended reals holds when the factors are real
  numbers (it fails at `s = ±∞`: `⊤ + ⊥ = ⊥` while `0 · ⊤ = 0`). So the law is stated over real `x`, `w`, `b`, `s`;
  the shift `h` may be any extended real, since it only rides along an associativity of `+`.

  The scale is real whenever `γ` and `v` are real and `0 ≤ v`: then `v + ε` is a positive real (`ε`, the word
  `0x3727C5AC`, denotes `10995116 / 2⁴⁰ > 0`), and `rsqrt` of a positive real is the real `(√(v + ε))⁻¹`.
-/
import Idealize.ShloMosaic.PureOps.Ideal

noncomputable section

namespace Cert.ScaleLaw

open Idealize.ShloMosaic
open scoped BigOperators

/-- The variance guard `ε` both programs add before the reciprocal square root: the f32 word nearest `1e-5`,
    the dyadic `10995116 / 2⁴⁰`. -/
theorem eps_eq : Ideal.ofBits .f32 0x3727C5AC#32 = (((10995116 : ℝ) / 2 ^ 40 : ℝ) : EReal) := by
  simp [Ideal.ofBits, Ideal.ieee, -EReal.coe_mul]; norm_num

/-- A finite sum of real numbers, each read as an extended real, is the real sum read as an extended real. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Scaling the weights and the bias before the contraction is scaling the affine result after it, for real
    factors; the shift `h` is carried along unchanged. -/
theorem scale_before_eq_scale_after (x w : Fin 10 → ℝ) (b s : ℝ) (h : EReal) :
    (∑ k, ((x k : ℝ) : EReal) * (((w k : ℝ) : EReal) * ((s : ℝ) : EReal))) + (((b : ℝ) : EReal) * ((s : ℝ) : EReal) + h)
      = ((∑ k, ((x k : ℝ) : EReal) * ((w k : ℝ) : EReal)) + ((b : ℝ) : EReal)) * ((s : ℝ) : EReal) + h := by
  simp only [← EReal.coe_mul, coe_sum, ← EReal.coe_add]
  rw [← add_assoc, ← EReal.coe_add]
  congr 2
  rw [add_mul, Finset.sum_mul]
  congr 1
  exact Finset.sum_congr rfl fun k _ => by ring

/-- The same law for extended reals known to be finite: each is the real number it denotes. -/
theorem scale_before_eq_scale_after_of_finite (x w : Fin 10 → EReal) (b s h : EReal)
    (hx : ∀ k, x k ≠ ⊤ ∧ x k ≠ ⊥) (hw : ∀ k, w k ≠ ⊤ ∧ w k ≠ ⊥) (hb : b ≠ ⊤ ∧ b ≠ ⊥) (hs : s ≠ ⊤ ∧ s ≠ ⊥) :
    (∑ k, x k * (w k * s)) + (b * s + h) = ((∑ k, x k * w k) + b) * s + h := by
  have ex : ∀ k, x k = (((x k).toReal : ℝ) : EReal) := fun k => (EReal.coe_toReal (hx k).1 (hx k).2).symm
  have ew : ∀ k, w k = (((w k).toReal : ℝ) : EReal) := fun k => (EReal.coe_toReal (hw k).1 (hw k).2).symm
  have eb : b = ((b.toReal : ℝ) : EReal) := (EReal.coe_toReal hb.1 hb.2).symm
  have es : s = ((s.toReal : ℝ) : EReal) := (EReal.coe_toReal hs.1 hs.2).symm
  have := scale_before_eq_scale_after (fun k => (x k).toReal) (fun k => (w k).toReal) b.toReal s.toReal h
  simp only [← ex, ← ew, ← eb, ← es] at this
  exact this

/-- The scale `γ · rsqrt (v + ε)` is a real number when `γ` and `v` are real and `v` is not negative. -/
theorem scale_finite (g v : EReal) (hg : g ≠ ⊤ ∧ g ≠ ⊥) (hv : v ≠ ⊤ ∧ v ≠ ⊥) (hv0 : 0 ≤ v) :
    g * Ideal.rsqrt (v + Ideal.ofBits .f32 0x3727C5AC#32) ≠ ⊤ ∧ g * Ideal.rsqrt (v + Ideal.ofBits .f32 0x3727C5AC#32) ≠ ⊥ := by
  obtain ⟨g', rfl⟩ : ∃ r : ℝ, g = (r : EReal) := ⟨g.toReal, (EReal.coe_toReal hg.1 hg.2).symm⟩
  obtain ⟨v', rfl⟩ : ∃ r : ℝ, v = (r : EReal) := ⟨v.toReal, (EReal.coe_toReal hv.1 hv.2).symm⟩
  have hv' : (0 : ℝ) ≤ v' := by exact_mod_cast hv0
  have hpos : (0 : ℝ) < v' + 10995116 / 2 ^ 40 := by positivity
  rw [eps_eq, ← EReal.coe_add, Ideal.rsqrt_coe, if_neg (not_lt.mpr hpos.le), if_neg hpos.ne', ← EReal.coe_mul]
  exact ⟨EReal.coe_ne_top _, EReal.coe_ne_bot _⟩

end Cert.ScaleLaw

end
-- ==== Proof.Spec.lean ====
/-
  The result array as ONE function of the seven argument arrays, index by index, in the two arrangements the programs
  compute it in, and their equality.

  With `x` the `4000000 × 10` input, `w` the `10 × 10` weight, `b` the `1 × 10` bias and `γ, β, μ, v` the batch-norm
  vectors of length 10, put for an output column `c`

      scale c = γ c · rsqrt (v c + ε)            shift c = β c − μ c · scale c.

  The reference forms the affine map and then normalises it (`afterForm`):
      out r c = (∑ₖ x r k · w k c + b 0 c) · scale c + shift c.
  The kernel folds the scale into the weight and the bias on the host, and its body is one matrix product plus a bias
  row (`beforeForm`):
      out r c = ∑ₖ x r k · (w k c · scale c) + (b 0 c · scale c + shift c).
  They are the same array when every entry of `x`, `w`, `b`, `γ`, `v` is a real number and `v` is nowhere negative: then
  the scale is a real number and the product distributes over the sum (Proof/ScaleLaw.lean). The shift needs no
  hypothesis.
-/
import Idealize.ShloMosaic.Lib.ValueIdx
import proofs.«176276_j87522843559166_1_alg».proof.Proof.ScaleLaw

noncomputable section

namespace Cert.Spec

open Idealize.ShloMosaic Idealize.ShloMosaic.ValueIdx
open scoped BigOperators

/-- A matrix of extended reals, by its literal extents. -/
abbrev Mat (r c : Nat) : Type := (⟨2, ![r, c]⟩ : Shape).Idx → EReal
/-- A vector of extended reals, by its literal length. -/
abbrev Row (n : Nat) : Type := (⟨1, ![n]⟩ : Shape).Idx → EReal

/-- The batch-norm scale of output column `c`: `γ c · rsqrt (v c + ε)`, `ε` the word `0x3727C5AC`. -/
def scale (g v : Row 10) (c : Fin 10) : EReal :=
  g (ix1 c) * Ideal.rsqrt (v (ix1 c) + Ideal.ofBits .f32 0x3727C5AC#32)

/-- The batch-norm shift of output column `c`: `β c − μ c · scale c`. -/
def shift (g be mu v : Row 10) (c : Fin 10) : EReal :=
  be (ix1 c) - mu (ix1 c) * scale g v c

/-- Entry `(r, c)` of the result, the scale applied AFTER the affine map: `(∑ₖ x r k · w k c + b 0 c) · scale c + shift c`. -/
def afterAt (x : Mat 4000000 10) (w : Mat 10 10) (b : Mat 1 10) (g be mu v : Row 10) (r : Fin 4000000) (c : Fin 10) : EReal :=
  ((∑ k : Fin 10, x (ix2 r k) * w (ix2 k c)) + b (ix2 0 c)) * scale g v c + shift g be mu v c

/-- Entry `(r, c)` of the result, the scale folded into the weight and the bias BEFORE the product:
    `∑ₖ x r k · (w k c · scale c) + (b 0 c · scale c + shift c)`. -/
def beforeAt (x : Mat 4000000 10) (w : Mat 10 10) (b : Mat 1 10) (g be mu v : Row 10) (r : Fin 4000000) (c : Fin 10) : EReal :=
  (∑ k : Fin 10, x (ix2 r k) * (w (ix2 k c) * scale g v c)) + (b (ix2 0 c) * scale g v c + shift g be mu v c)

/-- The result array in the reference's arrangement. -/
def afterForm (x : Mat 4000000 10) (w : Mat 10 10) (b : Mat 1 10) (g be mu v : Row 10) : Mat 4000000 10 :=
  fun i => afterAt x w b g be mu v ⟨(i 0).val, (i 0).isLt⟩ ⟨(i 1).val, (i 1).isLt⟩

/-- The result array in the kernel's arrangement. -/
def beforeForm (x : Mat 4000000 10) (w : Mat 10 10) (b : Mat 1 10) (g be mu v : Row 10) : Mat 4000000 10 :=
  fun i => beforeAt x w b g be mu v ⟨(i 0).val, (i 0).isLt⟩ ⟨(i 1).val, (i 1).isLt⟩

/-- What the kernel's one region leaves in the result array, of the arrays it is launched on: the input `X`, a
    `10 × 10` matrix `W` and a `1 × 10` row `B` — entry `(r, c)` is `∑ₖ X r k · W k c + B 0 c`. -/
def productPlusRow (X : Mat 4000000 10) (W : Mat 10 10) (B : Mat 1 10) : Mat 4000000 10 :=
  fun i => (∑ k : Fin 10, X (ix2 (⟨(i 0).val, (i 0).isLt⟩ : Fin 4000000) k) * W (ix2 k (⟨(i 1).val, (i 1).isLt⟩ : Fin 10)))
    + B (ix2 (0 : Fin 1) (⟨(i 1).val, (i 1).isLt⟩ : Fin 10))

/-- Launched on the weight with the scale folded into its columns and on the bias row scaled and shifted, the region
    leaves the kernel's arrangement `beforeForm`. -/
theorem productPlusRow_eq_beforeForm (x : Mat 4000000 10) (w : Mat 10 10) (b : Mat 1 10) (g be mu v : Row 10)
    (W : Mat 10 10) (B : Mat 1 10) (hW : ∀ (k c : Fin 10), W (ix2 k c) = w (ix2 k c) * scale g v c)
    (hB : ∀ c : Fin 10, B (ix2 (0 : Fin 1) c) = b (ix2 (0 : Fin 1) c) * scale g v c + shift g be mu v c) :
    productPlusRow x W B = beforeForm x w b g be mu v := by
  funext i
  unfold productPlusRow beforeForm beforeAt
  simp only [hW, hB]

/-- The two arrangements are one array when `x`, `w`, `b`, `γ`, `v` hold real numbers and `v` is nowhere negative. -/
theorem beforeForm_eq_afterForm (x : Mat 4000000 10) (w : Mat 10 10) (b : Mat 1 10) (g be mu v : Row 10)
    (hx : ∀ i, x i ≠ ⊤ ∧ x i ≠ ⊥) (hw : ∀ i, w i ≠ ⊤ ∧ w i ≠ ⊥) (hb : ∀ i, b i ≠ ⊤ ∧ b i ≠ ⊥)
    (hg : ∀ i, g i ≠ ⊤ ∧ g i ≠ ⊥) (hv : ∀ i, v i ≠ ⊤ ∧ v i ≠ ⊥) (hv0 : ∀ i, 0 ≤ v i) :
    beforeForm x w b g be mu v = afterForm x w b g be mu v := by
  funext i
  unfold beforeForm afterForm beforeAt afterAt
  exact Cert.ScaleLaw.scale_before_eq_scale_after_of_finite _ _ _ _ _ (fun k => hx _) (fun k => hw _) (hb _)
    (Cert.ScaleLaw.scale_finite _ _ (hg _) (hv _) (hv0 _))

end Cert.Spec

end
-- ==== Proof.RefValue.lean ====
/-
  The reference computes the specification's `afterForm`.

  Its last stage, read one operation at a time at an index `i = (r, c)` (the generated read-at-an-index lemmas), is
      (∑ₖ x (r, k) · w (k, c) + b (0, c)) · (γ c · rsqrt (v c + ε)) + (β c − μ c · (γ c · rsqrt (v c + ε))):
  the `dot_general` contracts the input's columns against the weight's rows, the bias row is broadcast down the rows,
  and each length-10 vector reaches entry `(r, c)` through two broadcasts that keep only the column `c`. That is
  `afterForm` entry by entry; what is left to check is that the index functions the broadcasts compose to are the
  coordinates `(r, k)`, `(k, c)`, `(0, c)` and `c`.
-/
import proofs.«176276_j87522843559166_1_alg».proof.Proof.Gen.ReferenceIdeal.Read
import proofs.«176276_j87522843559166_1_alg».proof.Proof.Spec

noncomputable section

namespace Cert.RefValue

open Cert.ReferenceIdeal Cert.ReferenceIdeal.Read Idealize.ShloMosaic Idealize.ShloMosaic.ValueIdx Cert.Spec
open scoped BigOperators

variable [Cert.ReferenceIdeal.Facts]

/-- The reference's result array, as the composed stages state it, is the affine map normalised afterwards. -/
theorem last_stage_eq (x0 : (⟨S4000000x10, .f32⟩ : BufTy).Contents (Elt Ideal)) (x1 : (⟨S10x10, .f32⟩ : BufTy).Contents (Elt Ideal))
    (x2 : (⟨S1x10, .f32⟩ : BufTy).Contents (Elt Ideal)) (x3 x4 x5 x6 : (⟨S10, .f32⟩ : BufTy).Contents (Elt Ideal)) :
    val_main_v14 (F := Ideal) x0 x1 x2 x3 x4 x5 x6 = afterForm x0 x1 x2 x3 x4 x5 x6 := by
  funext i
  -- the contraction's operands sit at (r, k) and (k, c)
  have el : ∀ k : Fin 10, lidx_main_v0 i k = ix2 (⟨(i 0).val, (i 0).isLt⟩ : Fin 4000000) k := fun k =>
    funext fun a => Fin.ext (by match a with | ⟨0, _⟩ => rfl | ⟨1, _⟩ => rfl)
  have er : ∀ k : Fin 10, ridx_main_v0 i k = ix2 k (⟨(i 1).val, (i 1).isLt⟩ : Fin 10) := fun k =>
    funext fun a => Fin.ext (by match a with | ⟨0, _⟩ => rfl | ⟨1, _⟩ => rfl)
  -- the bias row is read at (0, c)
  have eb : idx_main_v1 i = ix2 (0 : Fin 1) (⟨(i 1).val, (i 1).isLt⟩ : Fin 10) :=
    funext fun a => Fin.ext (by match a with | ⟨0, _⟩ => rfl | ⟨1, _⟩ => rfl)
  -- a length-10 vector broadcast to a row and then down the rows is read at the column c
  have es : idx_main_v7 (idx_main_v8 i) = ix1 (⟨(i 1).val, (i 1).isLt⟩ : Fin 10) :=
    funext fun a => Fin.ext (by match a with | ⟨0, _⟩ => rfl)
  have eh : idx_main_v12 (idx_main_v13 i) = ix1 (⟨(i 1).val, (i 1).isLt⟩ : Fin 10) :=
    funext fun a => Fin.ext (by match a with | ⟨0, _⟩ => rfl)
  simp only [val_main_v14_apply, val_main_v9_apply, val_main_v2_apply, val_main_v0_apply, val_main_v1_apply,
    val_main_v8_apply, val_main_v7_apply, val_main_v6_apply, val_main_v5_apply, val_main_v4_apply, val_main_v3_apply,
    val_main_cst_apply, val_main_v13_apply, val_main_v12_apply, val_main_v11_apply, val_main_v10_apply]
  simp only [el, er, eb, es, eh]
  unfold afterForm afterAt shift scale
  simp only [Ideal.addf_def, Ideal.mulf_def, Ideal.subf_def, Ideal.hostUnary_rsqrt_def, Ideal.ofBits_def]

end Cert.RefValue

end
-- ==== Proof.KernelBody.lean ====
/-
  What the kernel's body stores, entry by entry, at the ideal values.

  The body loads a `10000 × 10` block `X` of the input, the whole `10 × 10` matrix `W` and the `1 × 10` row `B` that
  the host prepared, narrows `X` and `W` to bf16 (the identity on the extended reals), multiplies them on the matrix
  unit into a zero accumulator, and adds `B` broadcast down the rows. So the stored block holds at `(p, q)`

      ∑ₖ X (p, k) · W (k, q) + B (0, q).

  The matrix product contracts axis 1 of `X` against axis 0 of `W`: at output index `(p, q)` and contraction index `k`
  the left operand is read at `(p, k)` and the right at `(k, q)`; the contraction shape has ten indices.
-/
import proofs.«176276_j87522843559166_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelBody

open Cert.KernelIdeal Cert.KernelIdeal.Gen Idealize.ShloMosaic Idealize.ShloMosaic.ValueIdx
open scoped BigOperators

variable [Cert.KernelIdeal.Facts]

/-- The left operand's row is the output's row. -/
theorem lhs_axis0 (i : S10000x10.Idx) (q : dot_S10000x10_S10x10_S10000x10_1_0_0_1_n_n.contr.Idx) :
    (dot_S10000x10_S10x10_S10000x10_1_0_0_1_n_n.lhsIdx i q 0).val = (i 0).val := by
  unfold DotDims.lhsIdx
  rw [dif_neg (show ¬(0 : Fin S10000x10.rank) ∈ dot_S10000x10_S10x10_S10000x10_1_0_0_1_n_n.lhsBatch by decide), dif_pos (show (0 : Fin S10000x10.rank) ∈ dot_S10000x10_S10x10_S10000x10_1_0_0_1_n_n.lhsNonContracting by decide)]
  rfl
/-- The left operand's column is the contraction index. -/
theorem lhs_axis1 (i : S10000x10.Idx) (q : dot_S10000x10_S10x10_S10000x10_1_0_0_1_n_n.contr.Idx) :
    (dot_S10000x10_S10x10_S10000x10_1_0_0_1_n_n.lhsIdx i q 1).val = (q ⟨0, by decide⟩).val :=
  dot_S10000x10_S10x10_S10000x10_1_0_0_1_n_n.lhsIdx_val_of_single rfl i q
/-- The right operand's row is the contraction index. -/
theorem rhs_axis0 (i : S10000x10.Idx) (q : dot_S10000x10_S10x10_S10000x10_1_0_0_1_n_n.contr.Idx) :
    (dot_S10000x10_S10x10_S10000x10_1_0_0_1_n_n.rhsIdx i q 0).val = (q ⟨0, by decide⟩).val :=
  dot_S10000x10_S10x10_S10000x10_1_0_0_1_n_n.rhsIdx_val_of_single rfl i q
/-- The right operand's column is the output's column. -/
theorem rhs_axis1 (i : S10000x10.Idx) (q : dot_S10000x10_S10x10_S10000x10_1_0_0_1_n_n.contr.Idx) :
    (dot_S10000x10_S10x10_S10000x10_1_0_0_1_n_n.rhsIdx i q 1).val = (i 1).val := by
  unfold DotDims.rhsIdx
  rw [dif_neg (show ¬(1 : Fin S10x10.rank) ∈ dot_S10000x10_S10x10_S10000x10_1_0_0_1_n_n.rhsBatch by decide), dif_pos (show (1 : Fin S10x10.rank) ∈ dot_S10000x10_S10x10_S10000x10_1_0_0_1_n_n.rhsNonContracting by decide)]
  rfl

/-- The matrix unit's product into a zero accumulator, at entry `(p, q)`: the sum over the ten contraction indices. -/
theorem product_at (l : FVec Ideal S10000x10 .bf16) (r : FVec Ideal S10x10 .bf16) (p : Fin 10000) (q : Fin 10) :
    FloatOps.matmul dot_S10000x10_S10x10_S10000x10_1_0_0_1_n_n none l r (constant S10000x10 .f32 0x00000000#32) (ix2 p q)
      = ∑ k : Fin 10, l (ix2 p k) * r (ix2 k q) := by
  rw [Ideal.matmul_constant_zero_apply, ← Equiv.sum_comp (ValueIdx.contrEquiv1 dot_S10000x10_S10x10_S10000x10_1_0_0_1_n_n 10 rfl rfl).symm]
  refine Finset.sum_congr rfl fun k _ => ?_
  have hk := ValueIdx.contrEquiv1_symm_val dot_S10000x10_S10x10_S10000x10_1_0_0_1_n_n 10 rfl rfl k
  have el : dot_S10000x10_S10x10_S10000x10_1_0_0_1_n_n.lhsIdx (ix2 p q) ((ValueIdx.contrEquiv1 dot_S10000x10_S10x10_S10000x10_1_0_0_1_n_n 10 rfl rfl).symm k) = ix2 p k := funext fun a => Fin.ext (by
    match a with
    | ⟨0, _⟩ => exact lhs_axis0 _ _
    | ⟨1, _⟩ => exact (lhs_axis1 _ _).trans hk)
  have er : dot_S10000x10_S10x10_S10000x10_1_0_0_1_n_n.rhsIdx (ix2 p q) ((ValueIdx.contrEquiv1 dot_S10000x10_S10x10_S10000x10_1_0_0_1_n_n 10 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the `10000` rows, at `(p, q)`, is the row's entry `(0, q)`. -/
theorem bias_at (b : FVec Ideal S1x10 .f32) (p : Fin 10000) (q : Fin 10) :
    broadcastTo S10000x10 b broadcasts_S1x10_S10000x10 (ix2 p q) = b (ix2 (0 : Fin 1) q) :=
  broadcastTo_apply b broadcasts_S1x10_S10000x10 (ix2 p q) (ix2 (0 : Fin 1) q) (fun a => by
    match a with
    | ⟨0, _⟩ => rfl
    | ⟨1, _⟩ => rfl)

/-- THE STORED BLOCK at `(p, q)`: the product of the loaded input block and the loaded matrix, plus the loaded row. -/
theorem payload_at (X : Vec Ideal S10000x10 .f32) (W : Vec Ideal S10x10 .f32) (B : Vec Ideal S1x10 .f32) (p : Fin 10000) (q : Fin 10) :
    k0_pay1 (F := Ideal) X W B (ix2 p q) = (∑ k : Fin 10, X (ix2 p k) * W (ix2 k q)) + B (ix2 (0 : Fin 1) q) := by
  unfold k0_pay1
  refine (congrArg₂ (· + ·)
    (product_at (truncf .bf16 X bitsLt_bf16_f32) (truncf .bf16 (shapeCast S10x10 W shapeCasts_S10x10_S10x10) bitsLt_bf16_f32) p q)
    (bias_at (shapeCast S1x10 B shapeCasts_S1x10_S1x10) p q)).trans ?_
  rw [shapeCast_self, shapeCast_self]
  rfl

end Cert.KernelBody

end
-- ==== Proof.KernelArray.lean ====
/-
  From the blocks the grid points write back to the whole result array.

  The grid has 400 points; point `t` stages rows `10000·t … 10000·t + 9999` of the input (all ten columns), the whole
  `10 × 10` matrix and the whole `1 × 10` row, and writes back rows `10000·t … 10000·t + 9999` of the result. Entry
  `(p, q)` of the stored block is `∑ₖ X (p, k) · W (k, q) + B (0, q)` of the loaded blocks (Proof/KernelBody.lean), and
  the loaded input block's entry `(p, k)` is the array's entry `(10000·t + p, k)`: so what point `t` writes back is block
  `t` of ONE array, `productPlusRow` of the three arrays the region is launched on. Row `r` of the result lies in the
  block of point `r / 10000`, so the 400 blocks cover the array and it ends holding `productPlusRow`.
-/
import proofs.«176276_j87522843559166_1_alg».proof.Proof.Gen.KernelIdeal.Value
import proofs.«176276_j87522843559166_1_alg».proof.Proof.KernelBody
import proofs.«176276_j87522843559166_1_alg».proof.Proof.Spec
import Idealize.ShloMosaic.Lib.Pipeline.Value
import Idealize.ShloMosaic.Lib.Tactic

noncomputable section

namespace Cert.KernelArray

open Cert.KernelIdeal Cert.KernelIdeal.Gen Cert.KernelIdeal.Value Idealize.ShloMosaic Idealize.ShloMosaic.TcCoe Idealize.SL.Sem
open Idealize.ShloMosaic.ValueIdx Cert.Spec
open Idealize.ShloMosaic.Pipeline (Dat)
open scoped BigOperators

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 400 points: the input's and the result's block index is `(t, 0)`, the matrix's and
    the row's `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a stored block against one entry of `productPlusRow`: they agree when the block's matrix and row ARE
    the arrays', the columns coincide, and the block's input row is the array's row. -/
theorem block_entry (X : Vec Ideal S10000x10 .f32) (W : Vec Ideal S10x10 .f32) (B : Vec Ideal S1x10 .f32)
    (A : Mat 4000000 10) (W' : Mat 10 10) (B' : Mat 1 10) (j : S10000x10.Idx) (i : S4000000x10.Idx)
    (hW : W = W') (hB : B = B') (hc : (i 1).val = (j 1).val)
    (hX : ∀ k : Fin 10, X (ix2 (⟨(j 0).val, (j 0).isLt⟩ : Fin 10000) k) = A (ix2 (⟨(i 0).val, (i 0).isLt⟩ : Fin 4000000) k)) :
    k0_pay1 (F := Ideal) X W B j = productPlusRow A W' B' i := by
  subst hW hB
  have ej : j = ix2 (⟨(j 0).val, (j 0).isLt⟩ : Fin 10000) (⟨(j 1).val, (j 1).isLt⟩ : Fin 10) :=
    funext fun a => by match a with | ⟨0, _⟩ => rfl | ⟨1, _⟩ => rfl
  refine (congrArg (k0_pay1 (F := Ideal) X W B) ej).trans ((Cert.KernelBody.payload_at X W B _ _).trans ?_)
  have hq : (⟨(j 1).val, (j 1).isLt⟩ : Fin 10) = ⟨(i 1).val, (i 1).isLt⟩ := Fin.ext hc.symm
  unfold productPlusRow
  rw [hq]
  simp only [hX]

/-- WHAT POINT `t` WRITES BACK is block `t` of `productPlusRow` of the arrays as the region finds them. -/
theorem flushed_eq (c : Dev nD) (t : Fin cfg0.N) :
    (dats m 0 c).flushed 3 t = ((cfg0.win 3).blk t).view.read (Elt Ideal) (productPlusRow (V m c main_arg0) (V m c main_v8) (V m c main_v12)) := by
  rw [flushed3]
  unfold out0_3
  rw [View.canon_unit_zero zero_offsets]
  simp only [View.ld_unit_zero (S := S10000x10) zero_offsets, View.ld_unit_zero (S := S10x10) zero_offsets, View.ld_unit_zero (S := S1x10) zero_offsets]
  obtain ⟨e00, e01, e10, e11, e20, e21, e30, e31⟩ := block_indices t
  funext j
  show k0_pay1 (F := Ideal) (iblk m c 0 t) (iblk m c 1 t) (iblk m c 2 t) j
    = productPlusRow (V m c main_arg0) (V m c main_v8) (V m c main_v12) (((cfg0.win 3).blk t).view.emb j)
  refine block_entry (iblk m c 0 t) (iblk m c 1 t) (iblk m c 2 t) (V m c main_arg0) (V m c main_v8) (V m c main_v12) j
    (((cfg0.win 3).blk t).view.emb j) ?_ ?_ ?_ ?_
  · -- the matrix is staged whole: its one block is the array
    funext y
    show V m c main_v8 (((cfg0.win 1).blk t).view.emb y) = V m c main_v8 y
    congr 1
    funext a; apply Fin.ext
    match a with
    | ⟨0, _⟩ => show win0_1.index t (0 : Fin 2) * 10 + 1 * (y 0).val = (y 0).val; omega
    | ⟨1, _⟩ => show win0_1.index t (1 : Fin 2) * 10 + 1 * (y 1).val = (y 1).val; omega
  · -- the row is staged whole
    funext y
    show V m c main_v12 (((cfg0.win 2).blk t).view.emb y) = V m c main_v12 y
    congr 1
    funext a; apply Fin.ext
    match a with
    | ⟨0, _⟩ => show win0_2.index t (0 : Fin 2) * 1 + 1 * (y 0).val = (y 0).val; omega
    | ⟨1, _⟩ => show win0_2.index t (1 : Fin 2) * 10 + 1 * (y 1).val = (y 1).val; omega
  · -- the result block spans all ten columns
    show win0_3.index t (1 : Fin 2) * 10 + 1 * (j 1).val = (j 1).val
    omega
  · -- the input block's row p is the array's row 10000·t + p, which is the result block's row
    intro k
    show V m c main_arg0 (((cfg0.win 0).blk t).view.emb (ix2 (⟨(j 0).val, (j 0).isLt⟩ : Fin 10000) k))
      = V m c main_arg0 (ix2 (⟨((((cfg0.win 3).blk t).view.emb j) 0).val, ((((cfg0.win 3).blk t).view.emb j) 0).isLt⟩ : Fin 4000000) k)
    congr 1
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 10 + 1 * k.val = k.val; omega

/-- An index of the result array is in point `t`'s block iff each coordinate is in the block's range on its axis. -/
theorem mem_block (t : Fin cfg0.N) (i : S4000000x10.Idx) :
    i ∈ ((cfg0.win 3).blk t).view.set ↔ ∀ a : Fin 2, win0_3.index t a * S10000x10.size a ≤ (i a).val ∧ (i a).val < win0_3.index t a * S10000x10.size a + S10000x10.size a := by
  show i ∈ ((View.whole main_v13).slice (win0_3.rect t)).set ↔ _
  rw [View.set_slice_whole, Rect.mem_set_unit]
  exact Iff.rfl

/-- THE COVER: row `r` of the result lies in the block of point `r / 10000`, and every point writes its block back. -/
theorem covered (i : S4000000x10.Idx) :
    ∃ t : Fin cfg0.N, (cfg0.win 3).flush t = true ∧ i ∈ ((cfg0.win 3).blk t).view.set := by
  have hi0 : (i 0).val < 4000000 := (i 0).isLt
  have hi1 : (i 1).val < 10 := (i 1).isLt
  have hN : cfg0.N = 400 := N_0
  obtain ⟨t, ht⟩ : ∃ t : Fin cfg0.N, t.val = (i 0).val / 10000 := ⟨⟨(i 0).val / 10000, by omega⟩, rfl⟩
  obtain ⟨-, -, -, -, -, -, e30, e31⟩ := block_indices t
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 10 ≤ (i 1).val ∧ (i 1).val < win0_3.index t (1 : Fin 2) * 10 + 10; omega

/-- THE RESULT ARRAY after the run: `productPlusRow` of the three arrays the region is launched on. -/
theorem result_array (c : Dev nD) :
    (dats m 0 c).arrAt 3 cfg0.N = productPlusRow (V m c main_arg0) (V m c main_v8) (V m c main_v12) :=
  (dats m 0 c).arrAt_eq_of_cover 3 _ (fun t _ => flushed_eq m c t) covered

end Cert.KernelArray

end
-- ==== Proof.KernelHost.lean ====
/-
  The two arrays the host prepares for the kernel's region, entry by entry.

  Before the region the host computes, from the batch-norm vectors, `inv = γ · rsqrt (v + ε)` and `β − μ · inv` (length
  10), broadcasts `inv` to a row and down ten rows and multiplies the weight by it — so the region's matrix operand holds
  `w (k, c) · scale c` — and multiplies the bias row by the same row and adds the shift row — so the region's row operand
  holds `b (0, c) · scale c + shift c`. A length-10 vector broadcast to a `1 × 10` row is read at `(0, c)` as its entry
  `c`, and that row broadcast down ten rows is read at `(k, c)` as its entry `(0, c)`.
-/
import proofs.«176276_j87522843559166_1_alg».proof.Proof.Gen.KernelIdeal.Frame
import proofs.«176276_j87522843559166_1_alg».proof.Proof.Spec
import Idealize.ShloMosaic.Lib.Pipeline.Value
import Idealize.ShloMosaic.Lib.StableHlo.Run
import Idealize.ShloMosaic.Lib.Tactic

noncomputable section

namespace Cert.KernelHost

open Cert.KernelIdeal Cert.KernelIdeal.Gen Idealize.ShloMosaic Idealize.ShloMosaic.TcCoe Idealize.SL.Sem
open Idealize.ShloMosaic.ValueIdx Cert.Spec Idealize.ShloMosaic.StableHlo

variable [Cert.KernelIdeal.Facts]
variable (m : (ℓ : Loc nD τ sig) → Buf (Elt Ideal) ℓ)

/-- A length-10 vector made a `1 × 10` row, at `(0, c)`, is the vector's entry `c`. -/
theorem row_of_vec_at (y : FVec Ideal S10 .f32) (c : Fin 10) :
    broadcastInDim S1x10 ![1] bcast_S10_S1x10_1 y (ix2 (0 : Fin 1) c) = y (ix1 c) :=
  broadcastInDim_apply _ bcast_S10_S1x10_1 y (ix2 (0 : Fin 1) c) (ix1 c) (fun a => by
    match a with
    | ⟨0, _⟩ => rfl)

/-- A `1 × 10` row repeated down ten rows, at `(k, c)`, is the row's entry `(0, c)`. -/
theorem rows_of_row_at (y : FVec Ideal S1x10 .f32) (k c : Fin 10) :
    broadcastInDim S10x10 ![0, 1] bcast_S1x10_S10x10_0_1 y (ix2 k c) = y (ix2 (0 : Fin 1) c) :=
  broadcastInDim_apply _ bcast_S1x10_S10x10_0_1 y (ix2 k c) (ix2 (0 : Fin 1) c) (fun a => by
    match a with
    | ⟨0, _⟩ => rfl
    | ⟨1, _⟩ => rfl)

/-- The region's matrix operand as the host operations compute it from the arguments. -/
theorem weight_launched (c : Dev nD) :
    (V m c main_v8 : S10x10.Idx → EReal)
      = mulf (m ((c : Thread nD τ).loc main_arg1)) (broadcastInDim S10x10 ![0, 1] bcast_S1x10_S10x10_0_1 (broadcastInDim S1x10 ![1] bcast_S10_S1x10_1
          (mulf (m ((c : Thread nD τ).loc main_arg3)) (Host.rsqrt (addf (m ((c : Thread nD τ).loc main_arg6)) (broadcastInDim S10 ![] bcast_S_S10 (constant (F := Ideal) S_ .f32 0x3727C5AC#32))))))) := by
  dsimp only [V, hostOps0]
  after_results

/-- The region's row operand as the host operations compute it from the arguments. -/
theorem bias_launched (c : Dev nD) :
    (V m c main_v12 : S1x10.Idx → EReal)
      = addf (mulf (m ((c : Thread nD τ).loc main_arg2)) (broadcastInDim S1x10 ![1] bcast_S10_S1x10_1
          (mulf (m ((c : Thread nD τ).loc main_arg3)) (Host.rsqrt (addf (m ((c : Thread nD τ).loc main_arg6)) (broadcastInDim S10 ![] bcast_S_S10 (constant (F := Ideal) S_ .f32 0x3727C5AC#32)))))))
        (broadcastInDim S1x10 ![1] bcast_S10_S1x10_1 (subf (m ((c : Thread nD τ).loc main_arg4)) (mulf (m ((c : Thread nD τ).loc main_arg5))
          (mulf (m ((c : Thread nD τ).loc main_arg3)) (Host.rsqrt (addf (m ((c : Thread nD τ).loc main_arg6)) (broadcastInDim S10 ![] bcast_S_S10 (constant (F := Ideal) S_ .f32 0x3727C5AC#32)))))))) := by
  dsimp only [V, hostOps0]
  after_results

/-- The seven argument arrays of device `c`, each at its literal shape. -/
abbrev argX (c : Dev nD) : Mat 4000000 10 := m ((c : Thread nD τ).loc main_arg0)
abbrev argW (c : Dev nD) : Mat 10 10 := m ((c : Thread nD τ).loc main_arg1)
abbrev argB (c : Dev nD) : Mat 1 10 := m ((c : Thread nD τ).loc main_arg2)
abbrev argGamma (c : Dev nD) : Row 10 := m ((c : Thread nD τ).loc main_arg3)
abbrev argBeta (c : Dev nD) : Row 10 := m ((c : Thread nD τ).loc main_arg4)
abbrev argMean (c : Dev nD) : Row 10 := m ((c : Thread nD τ).loc main_arg5)
abbrev argVar (c : Dev nD) : Row 10 := m ((c : Thread nD τ).loc main_arg6)
/-- The two arrays the host prepares for the region, at their literal shapes. -/
abbrev launchedW (c : Dev nD) : Mat 10 10 := V m c main_v8
abbrev launchedB (c : Dev nD) : Mat 1 10 := V m c main_v12

/-- The length-10 vector `γ · rsqrt (v + ε)` the host computes first. -/
abbrev invVec (c : Dev nD) : FVec Ideal S10 .f32 :=
  mulf (m ((c : Thread nD τ).loc main_arg3)) (Host.rsqrt (addf (m ((c : Thread nD τ).loc main_arg6)) (broadcastInDim S10 ![] bcast_S_S10 (constant (F := Ideal) S_ .f32 0x3727C5AC#32))))

/-- The length-10 vector `β − μ · inv` the host computes next. -/
abbrev shiftVec (c : Dev nD) : FVec Ideal S10 .f32 :=
  subf (m ((c : Thread nD τ).loc main_arg4)) (mulf (m ((c : Thread nD τ).loc main_arg5)) (invVec m c))

/-- Its entry `c` is the specification's scale of column `c`. -/
theorem invVec_at (c : Dev nD) (q : Fin 10) : invVec m c (ix1 q) = scale (argGamma m c) (argVar m c) q := rfl

/-- Its entry `c` is the specification's shift of column `c`. -/
theorem shiftVec_at (c : Dev nD) (q : Fin 10) :
    shiftVec m c (ix1 q) = shift (argGamma m c) (argBeta m c) (argMean m c) (argVar m c) q := rfl

/-- The matrix operand at `(k, c)`: the weight's entry times the scale of column `c`. -/
theorem weight_at (c : Dev nD) (k q : Fin 10) :
    launchedW m c (ix2 k q) = argW m c (ix2 k q) * scale (argGamma m c) (argVar m c) q := by
  show (V m c main_v8 : S10x10.Idx → EReal) (ix2 k q) = _
  rw [weight_launched]
  show argW m c (ix2 k q) * broadcastInDim S10x10 ![0, 1] bcast_S1x10_S10x10_0_1 (broadcastInDim S1x10 ![1] bcast_S10_S1x10_1 (invVec m c)) (ix2 k q) = _
  rw [rows_of_row_at, row_of_vec_at, invVec_at]

/-- The row operand at `(0, c)`: the bias entry times the scale of column `c`, plus the shift of column `c`. -/
theorem bias_at (c : Dev nD) (q : Fin 10) :
    launchedB m c (ix2 (0 : Fin 1) q)
      = argB m c (ix2 (0 : Fin 1) q) * scale (argGamma m c) (argVar m c) q
        + shift (argGamma m c) (argBeta m c) (argMean m c) (argVar m c) q := by
  show (V m c main_v12 : S1x10.Idx → EReal) (ix2 (0 : Fin 1) q) = _
  rw [bias_launched]
  show argB m c (ix2 (0 : Fin 1) q) * broadcastInDim S1x10 ![1] bcast_S10_S1x10_1 (invVec m c) (ix2 (0 : Fin 1) q)
    + broadcastInDim S1x10 ![1] bcast_S10_S1x10_1 (shiftVec m c) (ix2 (0 : Fin 1) q) = _
  rw [row_of_vec_at, row_of_vec_at, invVec_at, shiftVec_at]

end Cert.KernelHost

end
-- ==== Proof.KernelRun.lean ====
/-
  The idealized kernel's run, with its result named.

  The region leaves `productPlusRow` of the input and of the two arrays the host prepared (Proof/KernelArray.lean); those
  two hold `w (k, c) · scale c` and `b (0, c) · scale c + shift c` (Proof/KernelHost.lean), and no host operation writes
  the input. So the result array is the specification's `beforeForm` of the seven arguments, and every execution ends
  there with the arguments unchanged.
-/
import proofs.«176276_j87522843559166_1_alg».proof.Proof.KernelArray
import proofs.«176276_j87522843559166_1_alg».proof.Proof.KernelHost

noncomputable section

namespace Cert.KernelRun

open Cert.KernelIdeal Cert.KernelIdeal.Gen Cert.KernelIdeal.Value Idealize.ShloMosaic Idealize.ShloMosaic.TcCoe Idealize.SL.Sem
open Cert.Spec Cert.KernelHost
open Idealize.ShloMosaic.Pipeline (Dat)

variable (m : (ℓ : Loc nD τ sig) → Buf (Elt Ideal) ℓ) (ρ : Dev nD → PrngReg)

/-- The result array after the run is the kernel's arrangement of the seven arguments. -/
theorem result_eq (c : Dev nD) :
    (dats m 0 c).arrAt 3 cfg0.N
      = beforeForm (argX m c) (argW m c) (argB m c) (argGamma m c) (argBeta m c) (argMean m c) (argVar m c) := by
  rw [Cert.KernelArray.result_array, V_main_arg0]
  exact productPlusRow_eq_beforeForm (argX m c) (argW m c) (argB m c) (argGamma m c) (argBeta m c) (argMean m c) (argVar m c)
    (launchedW m c) (launchedB m c) (weight_at m c) (bias_at m c)

/-- Every weakly fair execution of the idealized kernel terminates with the result array at `beforeForm` of the
    arguments and the arguments unchanged. -/
theorem run : θ_run defs (onTc (τ := τ) (main (F := Ideal))) ⟨m, fun _ => 0, ρ⟩ fun r => ∀ c : Dev nD,
      r.2.mem ((c : Thread nD τ).loc main_v13)
        = beforeForm (argX m c) (argW m c) (argB m c) (argGamma m c) (argBeta m c) (argMean m c) (argVar m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (result_eq m c), (h c).2⟩) (Cert.KernelIdeal.Value.run_blocks m ρ)

end Cert.KernelRun

end
-- ==== Proof.lean ====
/-
  A fused dense layer and inference-mode batch normalisation, `x ↦ (x · w + b) · s + h` with per-column scale
  `s = γ · rsqrt (v + ε)` and shift `h = β − μ · s`, over a `4000000 × 10` input.

  The reference forms the affine map `x · w + b` and then multiplies by `s` and adds `h`. The kernel folds `s` into the
  weight and the bias on the host (`w · s`, `b · s + h`) and its one region, over 400 row blocks of 10000 rows, is a
  matrix product with the folded weight plus the folded bias row. On the extended reals the two are equal by
  distributivity of `·` over `+`, which needs the factors to be real numbers: the inputs are finite by the
  precondition, and the scale is a real number because the precondition also keeps the moving variance `v` non-negative,
  so that `v + ε` is a positive real and its reciprocal square root a real. (At `v = −ε` the scale is `+∞`, and the
  kernel's `⊤ + ⊥` differs from the reference's `0 · ⊤`: there the two programs do disagree.)

  The pieces: Proof/ScaleLaw.lean (the law, and the scale being real), Proof/Spec.lean (the result array as one function
  of the arguments in both arrangements), Proof/PreFacts.lean (what the precondition says entry by entry),
  Proof/RefValue.lean (the reference computes the one arrangement), Proof/KernelBody.lean, Proof/KernelArray.lean,
  Proof/KernelHost.lean and Proof/KernelRun.lean (the kernel computes the other). The frames are the generated ones; the
  idealization rewrote nothing, so `preserves` has no conjunct.
-/
import proofs.«176276_j87522843559166_1_alg».proof.Defs
import proofs.«176276_j87522843559166_1_alg».proof.Proof.Gen.Kernel
import proofs.«176276_j87522843559166_1_alg».proof.Proof.Gen.Kernel.Skeleton
import proofs.«176276_j87522843559166_1_alg».proof.Proof.Gen.Kernel.Launch
import proofs.«176276_j87522843559166_1_alg».proof.Proof.Gen.Kernel.Points
import proofs.«176276_j87522843559166_1_alg».proof.Proof.Gen.Kernel.Frame
import proofs.«176276_j87522843559166_1_alg».proof.Proof.Gen.KernelIdeal
import proofs.«176276_j87522843559166_1_alg».proof.Proof.Gen.KernelIdeal.Skeleton
import proofs.«176276_j87522843559166_1_alg».proof.Proof.Gen.KernelIdeal.Launch
import proofs.«176276_j87522843559166_1_alg».proof.Proof.Gen.KernelIdeal.Points
import proofs.«176276_j87522843559166_1_alg».proof.Proof.Gen.KernelIdeal.Frame
import proofs.«176276_j87522843559166_1_alg».proof.Proof.Gen.ReferenceIdeal
import proofs.«176276_j87522843559166_1_alg».proof.Proof.Gen.Pre_finite_inputs
import proofs.«176276_j87522843559166_1_alg».proof.Proof.Gen.KernelIdeal.Value
import proofs.«176276_j87522843559166_1_alg».proof.Proof.Gen.ReferenceIdeal.Run
import proofs.«176276_j87522843559166_1_alg».proof.Proof.Gen.ReferenceIdeal.Read
import proofs.«176276_j87522843559166_1_alg».proof.Proof.PreFacts
import proofs.«176276_j87522843559166_1_alg».proof.Proof.RefValue
import proofs.«176276_j87522843559166_1_alg».proof.Proof.KernelRun
import Idealize.ShloMosaic.Adequacy
import Idealize.ShloMosaic.Init

noncomputable section

namespace Cert.Proof

open Idealize.ShloMosaic Idealize.SL.Sem Cert.Kernel

/-- The word-level kernel runs and leaves its arguments unchanged: the generated frame. -/
theorem frame_kernel : Cert.frame_Kernel := fun m ρ _ => Cert.Kernel.Gen.frame m ρ

/-- The idealized kernel runs and leaves its arguments unchanged: the generated frame. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel at the
    scale-folded arrangement of the arguments, the reference at the scale-applied-afterwards arrangement, and the two
    arrangements are one array because the precondition makes every factor a real number. -/
theorem algebraic : Cert.algebraic_KernelIdeal_ReferenceIdeal := by
  intro m ρ m' ρ' hpre hagree
  refine ⟨fun c => Cert.Spec.beforeForm (Cert.KernelHost.argX m c) (Cert.KernelHost.argW m c) (Cert.KernelHost.argB m c)
    (Cert.KernelHost.argGamma m c) (Cert.KernelHost.argBeta m c) (Cert.KernelHost.argMean m c) (Cert.KernelHost.argVar m c),
    Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v14_eq, Cert.RefValue.last_stage_eq, a0, a1, a2, a3, a4, a5, a6]
  obtain ⟨hx, hw, hb, hg, -, -, hv, hv0⟩ := Cert.PreFacts.of_pre _ _ _ _ _ _ _ (hpre c)
  exact (Cert.Spec.beforeForm_eq_afterForm _ _ _ _ _ _ _ hx hw hb hg hv hv0).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
